-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S20000x32 : Shape := ⟨2, ![20000, 32]⟩
abbrev S256x256 : Shape := ⟨2, ![256, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S50000x256 .f32) (main_arg1 : IVec S20000x32 32) (main_arg2 : FVec F S256x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S50000x256 : Shape := ⟨2, ![50000, 256]⟩
abbrev S20000x32 : Shape := ⟨2, ![20000, 32]⟩
abbrev S256x256 : Shape := ⟨2, ![256, 256]⟩
abbrev S_ : Shape := ⟨0, ![]⟩
abbrev S20000x32x1 : Shape := ⟨3, ![20000, 32, 1]⟩
abbrev S20000x32x256 : Shape := ⟨3, ![20000, 32, 256]⟩
abbrev S20000x256 : Shape := ⟨2, ![20000, 256]⟩
abbrev S20000x1x256 : Shape := ⟨3, ![20000, 1, 256]⟩
abbrev S2000x256 : Shape := ⟨2, ![2000, 256]⟩

abbrev nBuf : Space → Nat
  | .hbm => 28
  | .vmem => 5
  | .smem => 0
  | _ => 0

abbrev bufTy : (tb : Table) → Fin (tcTables nBuf tb) → BufTy
  | .hbm, ⟨0, _⟩ => ⟨S50000x256, .f32⟩
  | .hbm, ⟨1, _⟩ => ⟨S20000x32, .i32⟩
  | .hbm, ⟨2, _⟩ => ⟨S256x256, .f32⟩
  | .hbm, ⟨3, _⟩ => ⟨S_, .i32⟩
  | .hbm, ⟨4, _⟩ => ⟨S20000x32, .i32⟩
  | .hbm, ⟨5, _⟩ => ⟨S20000x32, .i1⟩
  | .hbm, ⟨6, _⟩ => ⟨S_, .i32⟩
  | .hbm, ⟨7, _⟩ => ⟨S20000x32, .i32⟩
  | .hbm, ⟨8, _⟩ => ⟨S20000x32, .i32⟩
  | .hbm, ⟨9, _⟩ => ⟨S20000x32, .i32⟩
  | .hbm, ⟨10, _⟩ => ⟨S20000x32x1, .i32⟩
  | .hbm, ⟨11, _⟩ => ⟨S20000x32x256, .f32⟩
  | .hbm, ⟨12, _⟩ => ⟨S_, .f32⟩
  | .hbm, ⟨13, _⟩ => ⟨S20000x256, .f32⟩
  | .hbm, ⟨14, _⟩ => ⟨S_, .f32⟩
  | .hbm, ⟨15, _⟩ => ⟨S50000x256, .f32⟩
  | .hbm, ⟨16, _⟩ => ⟨S20000x1x256, .f32⟩
  | .hbm, ⟨17, _⟩ => ⟨S_, .i32⟩
  | .hbm, ⟨18, _⟩ => ⟨S20000x32, .i32⟩
  | .hbm, ⟨19, _⟩ => ⟨S20000x32, .i1⟩
  | .hbm, ⟨20, _⟩ => ⟨S_, .i32⟩
  | .hbm, ⟨21, _⟩ => ⟨S20000x32, .i32⟩
  | .hbm, ⟨22, _⟩ => ⟨S20000x32, .i32⟩
  | .hbm, ⟨23, _⟩ => ⟨S20000x32, .i32⟩
  | .hbm, ⟨24, _⟩ => ⟨S20000x32x1, .i32⟩
  | .hbm, ⟨25, _⟩ => ⟨S20000x32x256, .f32⟩
  | .hbm, ⟨26, _⟩ => ⟨S50000x256, .f32⟩
  | .hbm, ⟨27, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S20000x32 : S_.BroadcastsInDim S20000x32 (![] : Fin 0 → Fin S20000x32.rank)
  bcast_S20000x32_S20000x32x1_0_1 : S20000x32.BroadcastsInDim S20000x32x1 (![0, 1] : Fin 2 → Fin S20000x32x1.rank)
  reducesTo_S20000x32x256_S20000x256_d1 : S20000x32x256.ReducesTo [1] S20000x256
  h_S_ : 0 < S_.numel
  bcast_S_S50000x256 : S_.BroadcastsInDim S50000x256 (![] : Fin 0 → Fin S50000x256.rank)
  bcast_S20000x256_S20000x1x256_0_2 : S20000x256.BroadcastsInDim S20000x1x256 (![0, 2] : Fin 2 → Fin S20000x1x256.rank)
  bcast_S20000x1x256_S20000x32x256_0_1_2 : S20000x1x256.BroadcastsInDim S20000x32x256 (![0, 1, 2] : Fin 3 → Fin S20000x32x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  gather_S50000x256_S20000x32x1_S20000x32x256_2_0_n_n_0_2_1256_wf : GatherDims.WF S50000x256 S20000x32x1 S20000x32x256 [2] [0] [] [0] [] 2 ![1, 256]
  scatter_S50000x256_S20000x32x1_S20000x32x256_2_0_0_2_wf : ScatterDims.WF S50000x256 S20000x32x1 S20000x32x256 [2] [0] [0] 2
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)

variable [Facts₀]

def gather_S50000x256_S20000x32x1_S20000x32x256_2_0_n_n_0_2_1256 : GatherDims S50000x256 S20000x32x1 S20000x32x256 where
  offsetDims := [2]
  collapsedSliceDims := [0]
  operandBatchingDims := []
  startIndicesBatchingDims := []
  startIndexMap := [0]
  indexVectorDim := 2
  sliceSizes := ![1, 256]
  wf := gather_S50000x256_S20000x32x1_S20000x32x256_2_0_n_n_0_2_1256_wf
def scatter_S50000x256_S20000x32x1_S20000x32x256_2_0_0_2 : ScatterDims S50000x256 S20000x32x1 S20000x32x256 where
  updateWindowDims := [2]
  insertedWindowDims := [0]
  scatterDimsToOperandDims := [0]
  indexVectorDim := 2
  wf := scatter_S50000x256_S20000x32x1_S20000x32x256_2_0_0_2_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v17) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x256 : Shape := ⟨2, ![50000, 256]⟩
abbrev S20000x32 : Shape := ⟨2, ![20000, 32]⟩
abbrev S256x256 : Shape := ⟨2, ![256, 256]⟩
abbrev S_ : Shape := ⟨0, ![]⟩
abbrev S20000x32x1 : Shape := ⟨3, ![20000, 32, 1]⟩
abbrev S20000x32x256 : Shape := ⟨3, ![20000, 32, 256]⟩
abbrev S20000x256 : Shape := ⟨2, ![20000, 256]⟩
abbrev S20000x1x256 : Shape := ⟨3, ![20000, 1, 256]⟩

abbrev nBuf : Space → Nat
  | .hbm => 31
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S20000x32, .i32⟩
  | .hbm, ⟨2, _⟩ => ⟨S256x256, .f32⟩
  | .hbm, ⟨3, _⟩ => ⟨S_, .i32⟩
  | .hbm, ⟨4, _⟩ => ⟨S20000x32, .i32⟩
  | .hbm, ⟨5, _⟩ => ⟨S20000x32, .i1⟩
  | .hbm, ⟨6, _⟩ => ⟨S_, .i32⟩
  | .hbm, ⟨7, _⟩ => ⟨S20000x32, .i32⟩
  | .hbm, ⟨8, _⟩ => ⟨S20000x32, .i32⟩
  | .hbm, ⟨9, _⟩ => ⟨S20000x32, .i32⟩
  | .hbm, ⟨10, _⟩ => ⟨S20000x32x1, .i32⟩
  | .hbm, ⟨11, _⟩ => ⟨S20000x32x256, .f32⟩
  | .hbm, ⟨12, _⟩ => ⟨S_, .f32⟩
  | .hbm, ⟨13, _⟩ => ⟨S20000x256, .f32⟩
  | .hbm, ⟨14, _⟩ => ⟨S_, .f32⟩
  | .hbm, ⟨15, _⟩ => ⟨S50000x256, .f32⟩
  | .hbm, ⟨16, _⟩ => ⟨S20000x1x256, .f32⟩
  | .hbm, ⟨17, _⟩ => ⟨S_, .i32⟩
  | .hbm, ⟨18, _⟩ => ⟨S20000x32, .i32⟩
  | .hbm, ⟨19, _⟩ => ⟨S20000x32, .i1⟩
  | .hbm, ⟨20, _⟩ => ⟨S_, .i32⟩
  | .hbm, ⟨21, _⟩ => ⟨S20000x32, .i32⟩
  | .hbm, ⟨22, _⟩ => ⟨S20000x32, .i32⟩
  | .hbm, ⟨23, _⟩ => ⟨S20000x32, .i32⟩
  | .hbm, ⟨24, _⟩ => ⟨S20000x32x1, .i32⟩
  | .hbm, ⟨25, _⟩ => ⟨S20000x32x256, .f32⟩
  | .hbm, ⟨26, _⟩ => ⟨S50000x256, .f32⟩
  | .hbm, ⟨27, _⟩ => ⟨S50000x256, .f32⟩
  | .hbm, ⟨28, _⟩ => ⟨S_, .f32⟩
  | .hbm, ⟨29, _⟩ => ⟨S50000x256, .f32⟩
  | .hbm, ⟨30, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  bcast_S_S20000x32 : S_.BroadcastsInDim S20000x32 (![] : Fin 0 → Fin S20000x32.rank)
  bcast_S20000x32_S20000x32x1_0_1 : S20000x32.BroadcastsInDim S20000x32x1 (![0, 1] : Fin 2 → Fin S20000x32x1.rank)
  reducesTo_S20000x32x256_S20000x256_d1 : S20000x32x256.ReducesTo [1] S20000x256
  h_S_ : 0 < S_.numel
  bcast_S_S50000x256 : S_.BroadcastsInDim S50000x256 (![] : Fin 0 → Fin S50000x256.rank)
  bcast_S20000x256_S20000x1x256_0_2 : S20000x256.BroadcastsInDim S20000x1x256 (![0, 2] : Fin 2 → Fin S20000x1x256.rank)
  bcast_S20000x1x256_S20000x32x256_0_1_2 : S20000x1x256.BroadcastsInDim S20000x32x256 (![0, 1, 2] : Fin 3 → Fin S20000x32x256.rank)
  gather_S50000x256_S20000x32x1_S20000x32x256_2_0_n_n_0_2_1256_wf : GatherDims.WF S50000x256 S20000x32x1 S20000x32x256 [2] [0] [] [0] [] 2 ![1, 256]
  scatter_S50000x256_S20000x32x1_S20000x32x256_2_0_0_2_wf : ScatterDims.WF S50000x256 S20000x32x1 S20000x32x256 [2] [0] [0] 2
  dot_S50000x256_S256x256_S50000x256_1_0_0_1_n_n_wf : DotDims.WF S50000x256 S256x256 S50000x256 [1] [0] [0] [1] [] []

variable [Facts₀]

def gather_S50000x256_S20000x32x1_S20000x32x256_2_0_n_n_0_2_1256 : GatherDims S50000x256 S20000x32x1 S20000x32x256 where
  offsetDims := [2]
  collapsedSliceDims := [0]
  operandBatchingDims := []
  startIndicesBatchingDims := []
  startIndexMap := [0]
  indexVectorDim := 2
  sliceSizes := ![1, 256]
  wf := gather_S50000x256_S20000x32x1_S20000x32x256_2_0_n_n_0_2_1256_wf
def scatter_S50000x256_S20000x32x1_S20000x32x256_2_0_0_2 : ScatterDims S50000x256 S20000x32x1 S20000x32x256 where
  updateWindowDims := [2]
  insertedWindowDims := [0]
  scatterDimsToOperandDims := [0]
  indexVectorDim := 2
  wf := scatter_S50000x256_S20000x32x1_S20000x32x256_2_0_0_2_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.Layer.lean ====
/-
  The layer's dense stage as one function of its two operands.

  For aggregated node features `a` (50000 × 256) and a weight `w` (256 × 256), entry (p, q) of relu (a · w) is the sum
  over k of a (p, k) · w (k, q), floored at zero. Over the extended reals the sum is a finite sum in a commutative monoid,
  so neither the order of its terms nor the way the rows are cut into blocks changes it.
-/
import Idealize.ShloMosaic.PureOps.Ideal.Laws
import Idealize.ShloMosaic.Lib.ValueIdx

noncomputable section

namespace Cert.Layer

open Idealize.ShloMosaic Idealize.ShloMosaic.ValueIdx

/-- Entry (p, q) of relu (a · w): the row-by-column sum floored at the value of the zero word. -/
def reluProj (a : FVec Ideal ⟨2, ![50000, 256]⟩ .f32) (w : FVec Ideal ⟨2, ![256, 256]⟩ .f32) :
    FVec Ideal ⟨2, ![50000, 256]⟩ .f32 :=
  fun i => max (∑ k : Fin 256, a (ix2 (i 0) k) * w (ix2 k (i 1))) (Ideal.ofBits .f32 0x00000000#32)

/-- The same entry with its two coordinates named. -/
theorem reluProj_apply (a : FVec Ideal ⟨2, ![50000, 256]⟩ .f32) (w : FVec Ideal ⟨2, ![256, 256]⟩ .f32)
    (p : Fin 50000) (q : Fin 256) :
    reluProj a w (ix2 p q) = max (∑ k : Fin 256, a (ix2 p k) * w (ix2 k q)) (Ideal.ofBits .f32 0x00000000#32) := rfl

end Cert.Layer

end
-- ==== Proof.KernelBlock.lean ====
/-
  One grid point of the kernel: from a 2000 × 256 block `x0` of the aggregated features and the whole 256 × 256 weight
  `x1` the body stores max (x0 · x1, 0). The casts to bf16 are the identity on extended reals and the shape cast is to the
  same shape, so entry (p, q) of what is stored is the sum over k of x0 (p, k) · x1 (k, q), floored at zero.
-/
import proofs.«182118_j10299331576565_1_alg».proof.Proof.Gen.KernelIdeal.Skeleton
import proofs.«182118_j10299331576565_1_alg».proof.Proof.LibMatmul
import proofs.«182118_j10299331576565_1_alg».proof.Proof.Layer
import Idealize.ShloMosaic.Lib.Pipeline.Value

noncomputable section

namespace Cert.KernelIdeal.Block

open Cert.KernelIdeal Cert.KernelIdeal.Gen Idealize.ShloMosaic Idealize.ShloMosaic.ValueIdx

/-- The body's contraction is the plain one: the block's second axis against the weight's first. -/
theorem dot_plain : dot_S2000x256_S256x256_S2000x256_1_0_0_1_n_n = DotDims.plain 2000 256 256 := rfl

/-- Entry (p, q) of the stored block. -/
theorem pay_apply (x0 : Vec Ideal S2000x256 .f32) (x1 : Vec Ideal S256x256 .f32) (p : Fin 2000) (q : Fin 256) :
    k0_pay1 x0 x1 (ix2 p q)
      = max (∑ k : Fin 256, x0 (ix2 p k) * x1 (ix2 k q)) (Ideal.ofBits .f32 0x00000000#32) := by
  unfold k0_pay1
  rw [shapeCast_self, dot_plain]
  refine (maximumf_apply _ _ (ix2 p q)).trans ?_
  refine congrArg₂ max ?_ rfl
  exact Cert.Matmul.matmul_plain_apply none _ _ p q

/-- The stored block against the whole product: if row (j 0) of the block `x0` is row (i 0) of the features `A` and column
    (j 1) of `x1` is column (i 1) of the weight `W`, then entry j of what the point stores is entry i of relu (A · W). -/
theorem block_entry (A : FVec Ideal S50000x256 .f32) (W : FVec Ideal S256x256 .f32)
    (x0 : Vec Ideal S2000x256 .f32) (x1 : Vec Ideal S256x256 .f32) (j : S2000x256.Idx) (i : S50000x256.Idx)
    (h0 : ∀ k : Fin 256, x0 (ix2 (j 0) k) = A (ix2 (i 0) k))
    (h1 : ∀ k : Fin 256, x1 (ix2 k (j 1)) = W (ix2 k (i 1))) :
    k0_pay1 x0 x1 j = Cert.Layer.reluProj A W i := by
  refine ((congrArg (k0_pay1 x0 x1) (eq_ix2 j)).trans (pay_apply x0 x1 (j 0) (j 1))).trans ?_
  show _ = max (∑ k : Fin 256, A (ix2 (i 0) k) * W (ix2 k (i 1))) (Ideal.ofBits .f32 0x00000000#32)
  exact congrArg₂ max (Finset.sum_congr rfl fun k _ => by rw [h0 k, h1 k]) rfl

end Cert.KernelIdeal.Block

end
-- ==== Proof.KernelArray.lean ====
/-
  The kernel's result array after the run.

  Before the region the host has written the aggregated features: each hyperedge's member rows of x gathered and summed
  (negative indices wrapped by 50000 first), the sums scattered back with addition onto a zero array at every member's row.
  The region then runs 25 grid points; point t reads rows 2000 t … 2000 t + 1999 of the aggregated features and the whole
  weight, and writes back rows 2000 t … 2000 t + 1999 of relu (features · weight). The 25 row blocks tile the 50000 rows, so
  the result array ends as `Cert.Layer.reluProj` of the aggregated features and the weight.
-/
import proofs.«182118_j10299331576565_1_alg».proof.Proof.Gen.KernelIdeal.Value
import proofs.«182118_j10299331576565_1_alg».proof.Proof.KernelBlock
import proofs.«182118_j10299331576565_1_alg».proof.Proof.Layer
import Idealize.ShloMosaic.Lib.StableHlo.Run

noncomputable section

namespace Cert.KernelIdeal.Dense

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The aggregated features, as the host operations before the region compute them -/

/-- A hyperedge table with its negative entries wrapped by the number of nodes, as a column of row indices. -/
def wrapped (e : IVec S20000x32 32) : IVec S20000x32x1 32 :=
  broadcastInDim S20000x32x1 ![0, 1] bcast_S20000x32_S20000x32x1_0_1 (select (cmpi .slt e (broadcastInDim S20000x32 ![] bcast_S_S20000x32 (constantI S_ 32 0#32))) (addi e (broadcastInDim S20000x32 ![] bcast_S_S20000x32 (constantI S_ 32 50000#32))) e)

/-- Node features aggregated over hyperedges: every hyperedge's member rows of `x` summed, and that sum added onto each
    member's row of a zero array. -/
def agg (x : FVec Ideal S50000x256 .f32) (e : IVec S20000x32 32) : FVec Ideal S50000x256 .f32 :=
  Host.scatterAdd scatter_S50000x256_S20000x32x1_S20000x32x256_2_0_0_2
    (broadcastInDim S50000x256 ![] bcast_S_S50000x256 (constant S_ .f32 0x00000000#32))
    (wrapped e)
    (broadcastInDim S20000x32x256 ![0, 1, 2] bcast_S20000x1x256_S20000x32x256_0_1_2
      (broadcastInDim S20000x1x256 ![0, 2] bcast_S20000x256_S20000x1x256_0_2
        (Host.reduceAdd (Host.gather gather_S50000x256_S20000x32x1_S20000x32x256_2_0_n_n_0_2_1256 x (wrapped e))
          (constant S_ .f32 0x00000000#32) reducesTo_S20000x32x256_S20000x256_d1 h_S_)))

set_option maxHeartbeats 2000000 in
/-- The region finds the aggregated features in the array its first window stages. -/
theorem V_agg (c : Dev nD) :
    (V m c main_v17 : S50000x256.Idx → EReal)
      = agg (m ((c : Thread nD τ).loc main_arg0)) (m ((c : Thread nD τ).loc main_arg1)) := by
  show StableHlo.after hostOps0 (fun b => m (c, b)) (Proc.devRef .tc main_v17) = _
  after_results
  rfl

/-! ## One grid point's write-back is a row block of relu (features · weight) -/

theorem hz : (![0, 0] : Fin 2 → Nat) = fun _ => 0 := funext fun a => by fin_cases a <;> rfl

/-- The index maps over the 25 points: the features' block and the result's block are row block t, the weight's block
    is the whole weight. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The arrays the region finds and a point's two input blocks, at their literal types. -/
abbrev feat (c : Dev nD) : FVec Ideal S50000x256 .f32 := V m c main_v17
abbrev wt (c : Dev nD) : FVec Ideal S256x256 .f32 := V m c main_arg2
abbrev fblk (c : Dev nD) (t : Fin cfg0.N) : Vec Ideal S2000x256 .f32 := iblk m c 0 t
abbrev wblk (c : Dev nD) (t : Fin cfg0.N) : Vec Ideal S256x256 .f32 := iblk m c 1 t

/-- What point t writes back is block t of relu (features · weight), features and weight as the region finds them. -/
theorem flushed_eq (c : Dev nD) (t : Fin cfg0.N) :
    (dats m 0 c).flushed 2 t
      = ((cfg0.win 2).blk t).view.read (Elt Ideal) (Cert.Layer.reluProj (feat m c) (wt m c)) := by
  rw [Cert.KernelIdeal.Value.flushed2]
  unfold out0_2
  rw [View.canon_unit_zero hz]
  simp only [View.ld_unit_zero (S := S2000x256) hz, View.ld_unit_zero (S := S256x256) hz]
  obtain ⟨e0, e1, e2, e3, e4, e5⟩ := idx_facts t
  funext j
  show k0_pay1 (fblk m c t) (wblk m c t) j
    = Cert.Layer.reluProj (feat m c) (wt m c) (((cfg0.win 2).blk t).view.emb j)
  have hj0 : (j 0).val < 2000 := (j 0).isLt
  have hj1 : (j 1).val < 256 := (j 1).isLt
  refine Cert.KernelIdeal.Block.block_entry (feat m c) (wt m c) (fblk m c t) (wblk m c t) j
    (((cfg0.win 2).blk t).view.emb j) (fun k => ?_) (fun k => ?_)
  · show feat m c (((cfg0.win 0).blk t).view.emb (ix2 (j 0) k))
      = feat m c (ix2 ((((cfg0.win 2).blk t).view.emb j) 0) k)
    refine congrArg (feat m c) ?_
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  · show wt m c (((cfg0.win 1).blk t).view.emb (ix2 k (j 1)))
      = wt m c (ix2 k ((((cfg0.win 2).blk t).view.emb j) 1))
    refine congrArg (wt m c) ?_
    funext a; apply Fin.ext
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega

/-! ## The 25 row blocks tile the array -/

/-- An index of the result array is in point t's block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v18).slice (win0_2.rect t)).set ↔ _
  rw [View.set_slice_whole, Rect.mem_set_unit]
  exact Iff.rfl

/-- Row r lies in the block of point r / 2000. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  have ht : (i 0).val / 2000 < cfg0.N := by rw [hN]; omega
  obtain ⟨e0, e1, e2, e3, e4, e5⟩ := idx_facts ⟨(i 0).val / 2000, ht⟩
  have e4' : win0_2.index ⟨(i 0).val / 2000, ht⟩ (0 : Fin 2) = (i 0).val / 2000 := e4
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4']; omega
  | ⟨1, _⟩ =>
    show win0_2.index ⟨(i 0).val / 2000, ht⟩ (1 : Fin 2) * 256 ≤ (i 1).val
      ∧ (i 1).val < win0_2.index ⟨(i 0).val / 2000, ht⟩ (1 : Fin 2) * 256 + 256
    rw [e5]; omega

/-- So the result array ends as relu (features · weight), features and weight as the region finds them. -/
theorem final (c : Dev nD) :
    (dats m 0 c).arrAt 2 cfg0.N = Cert.Layer.reluProj (feat m c) (wt m c) :=
  (dats m 0 c).arrAt_eq_of_cover 2 (Cert.Layer.reluProj (feat m c) (wt m c))
    (fun t _ => flushed_eq m c t) cover

/-- The two arrays the region finds, as terms of the arguments. -/
theorem feat_eq (c : Dev nD) :
    feat m c = agg (m ((c : Thread nD τ).loc main_arg0)) (m ((c : Thread nD τ).loc main_arg1)) := V_agg m c
theorem wt_eq (c : Dev nD) : wt m c = m ((c : Thread nD τ).loc main_arg2) := V_main_arg2 m c

/-! ## The run, read -/

/-- Every weakly fair execution of the kernel's program ends with the result array at relu (aggregated features · weight)
    of the arguments, the arguments unchanged. -/
theorem run : θ_run defs (onTc (τ := τ) (main (F := Ideal))) ⟨m, fun _ => 0, ρ⟩ fun r => ∀ c : Dev nD,
      r.2.mem ((c : Thread nD τ).loc main_v18)
        = Cert.Layer.reluProj (agg (m ((c : Thread nD τ).loc main_arg0)) (m ((c : Thread nD τ).loc main_arg1)))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by rw [feat_eq m c, wt_eq m c])), (h c).2⟩)
    (Cert.KernelIdeal.Value.run_blocks m ρ)

end Cert.KernelIdeal.Dense

end
-- ==== Proof.RefDense.lean ====
/-
  The reference's dense stage: relu of the host's 50000 × 256 by 256 × 256 product is, entry by entry, the sum over k of
  a (p, k) · w (k, q) floored at zero — the function `Cert.Layer.reluProj`.
-/
import proofs.«182118_j10299331576565_1_alg».proof.Proof.Gen.ReferenceIdeal
import proofs.«182118_j10299331576565_1_alg».proof.Proof.LibMatmul
import proofs.«182118_j10299331576565_1_alg».proof.Proof.Layer
import Idealize.ShloMosaic.Lib.Pipeline.Value

noncomputable section

namespace Cert.ReferenceIdeal.Dense

open Cert.ReferenceIdeal Cert.ReferenceIdeal.Gen Idealize.ShloMosaic Idealize.ShloMosaic.ValueIdx

/-- The host's contraction is the plain one: the features' second axis against the weight's first. -/
theorem dot_plain : dot_S50000x256_S256x256_S50000x256_1_0_0_1_n_n = DotDims.plain 50000 256 256 := rfl

/-- relu (a · w) on the host is `reluProj a w`: the product read at (p, q) is the row-by-column sum, and the broadcast
    zero reads the zero word's value at every index. -/
theorem relu_dot_eq (a : FVec Ideal S50000x256 .f32) (w : FVec Ideal S256x256 .f32) :
    maximumf (Host.dotGeneral dot_S50000x256_S256x256_S50000x256_1_0_0_1_n_n none a w)
        (broadcastInDim S50000x256 ![] bcast_S_S50000x256 (constant S_ .f32 0x00000000#32))
      = Cert.Layer.reluProj a w := by
  funext i
  obtain ⟨p, q, rfl⟩ : ∃ (p : Fin 50000) (q : Fin 256), i = ix2 p q := ⟨i 0, i 1, eq_ix2 i⟩
  rw [Cert.Layer.reluProj_apply, dot_plain]
  refine (maximumf_apply _ _ (ix2 p q)).trans ?_
  refine congrArg₂ max ?_ rfl
  exact Cert.Matmul.dotGeneral_plain_apply none .single a w p q

end Cert.ReferenceIdeal.Dense

end
-- ==== Proof.lean ====
/-
  A hypergraph convolution layer: out = relu (agg · weight), where agg adds, onto every member node of every hyperedge,
  the sum of that hyperedge's member rows of x.

  Kernel and reference compute agg by the same host operations (wrap negative indices, gather, sum over the members,
  scatter with addition onto zeros), so agg is one term of the arguments on both sides. The kernel then computes
  relu (agg · weight) in 25 row blocks of 2000 rows, each block's product taken after a cast to bf16, which is the identity
  on extended reals; the reference takes one 50000 × 256 by 256 × 256 product and floors it at zero. Entry (p, q) is on both
  sides the sum over k of agg (p, k) · weight (k, q) floored at zero (`Cert.Layer.reluProj`): the row blocks tile the rows
  (Proof/KernelArray.lean), a block's entry is the whole product's entry (Proof/KernelBlock.lean), and the host's product
  reads as the same sum (Proof/RefDense.lean). No law of the extended reals beyond reindexing a finite sum is used, so
  the finiteness of the inputs is not needed.

  The idealization rewrote nothing, so there is nothing to preserve; the three frames are the generated runs.
-/
import proofs.«182118_j10299331576565_1_alg».proof.Defs
import proofs.«182118_j10299331576565_1_alg».proof.Proof.Gen.Kernel
import proofs.«182118_j10299331576565_1_alg».proof.Proof.Gen.Kernel.Frame
import proofs.«182118_j10299331576565_1_alg».proof.Proof.Gen.KernelIdeal
import proofs.«182118_j10299331576565_1_alg».proof.Proof.Gen.KernelIdeal.Frame
import proofs.«182118_j10299331576565_1_alg».proof.Proof.Gen.KernelIdeal.Value
import proofs.«182118_j10299331576565_1_alg».proof.Proof.Gen.ReferenceIdeal
import proofs.«182118_j10299331576565_1_alg».proof.Proof.Gen.ReferenceIdeal.Run
import proofs.«182118_j10299331576565_1_alg».proof.Proof.Gen.Pre_finite_inputs
import proofs.«182118_j10299331576565_1_alg».proof.Proof.KernelArray
import proofs.«182118_j10299331576565_1_alg».proof.Proof.RefDense
import Idealize.ShloMosaic.Adequacy
import Idealize.ShloMosaic.Init

noncomputable section

namespace Cert.Proof

open Idealize.ShloMosaic Idealize.ShloMosaic.TcCoe Idealize.SL.Sem

/-- The kernel's program runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with relu (agg · weight) of the arguments: the kernel's result array by its 25 row blocks, the
    reference's by the host product read entry by entry; agg is the same term of x and the hyperedge table on both sides. -/
theorem algebraic : Cert.algebraic_KernelIdeal_ReferenceIdeal := by
  intro m ρ m' ρ' _ hagree
  refine ⟨_, Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  refine (Cert.ReferenceIdeal.Dense.relu_dot_eq _ _).trans ?_
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
